-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Stages.lean ====
/- The host side of the two-layer graph convolution, as pure functions of the arrays — the operations the kernel's program
   and the reference apply in the same order around their two linear maps. From the edge list: the sources and the targets
   each followed by the self loops 0 … 99999 (`withLoops`); every node's in-degree with its self loop, a scatter-add of
   ones over the targets (`degree`); deg^(-1/2) where the degree is positive and 0 elsewhere (`invSqrtDegree`); and per
   edge the product of that at its source and at its target (`edgeNorm`), negative indices wrapped by the node count
   before each gather (`wrapIdx`). A layer then gathers the transformed features at the sources, scales each row by its
   edge's norm, scatter-adds the rows onto the targets and adds the bias (`aggregate128`, `aggregate64`); between the
   layers is a relu. `network` is the whole map with the two linear maps as parameters. -/
import proofs.«163183_j40484361732199_1_alg».proof.Proof.Gen.KernelIdeal

noncomputable section

namespace Cert.KernelIdeal.Stages

open Cert.KernelIdeal Cert.KernelIdeal.Gen Idealize.ShloMosaic

variable {F : FTy → Type} [FloatOps F]

/-- Row `r` of the [2, 1600000] edge list as a vector, followed by the self loops 0 … 99999. -/
def withLoops (r : Nat) (hr : S2x1600000.Slices ![r, 0] S1x1600000) (e : (⟨S2x1600000, .i32⟩ : BufTy).Contents (Elt F)) :
    (⟨S1700000, .i32⟩ : BufTy).Contents (Elt F) :=
  concatenate S1700000 0 [⟨S1600000, shapeCast S1600000 (extractStridedSlice S1x1600000 ![r, 0] e hr) shapeCasts_S1x1600000_S1600000⟩, ⟨S100000, iotaInDim S100000 32 0⟩] concatenates_S1600000_S100000_S1700000_d0

/-- The sources with the self loops. -/
def sources (e : (⟨S2x1600000, .i32⟩ : BufTy).Contents (Elt F)) : (⟨S1700000, .i32⟩ : BufTy).Contents (Elt F) :=
  withLoops 0 slices_S2x1600000_S1x1600000_0_0 e
/-- The targets with the self loops. -/
def targets (e : (⟨S2x1600000, .i32⟩ : BufTy).Contents (Elt F)) : (⟨S1700000, .i32⟩ : BufTy).Contents (Elt F) :=
  withLoops 1 slices_S2x1600000_S1x1600000_1_0 e

/-- A gather's index column: a negative index is taken from the end (100000 added), then the vector is laid as a column. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every node's in-degree, its self loop counted: ones scatter-added over the targets. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- deg^(-1/2) where the degree is positive, 0 elsewhere. -/
def invSqrtDegree (dst : (⟨S1700000, .i32⟩ : BufTy).Contents (Elt F)) : (⟨S100000, .f32⟩ : BufTy).Contents (Elt F) :=
  select (cmpf (F := F) .ogt (degree dst) (broadcastInDim S100000 ![] bcast_S_S100000 (constant S_ .f32 0x00000000#32)))
    (Host.rsqrt (degree dst))
    (broadcastInDim S100000 ![] bcast_S_S100000 (id (constant S_ .f32 0x00000000#32)))

/-- Per edge: deg^(-1/2) at its source times deg^(-1/2) at its target. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (invSqrtDegree dst) (wrapIdx src))
    (Host.gather gather_S100000_S1700000x1_S1700000_n_0_n_n_0_1_1 (invSqrtDegree dst) (wrapIdx dst))

/-- One layer's aggregation at width 128: rows of `h` gathered at the sources, each scaled by its edge's norm,
    scatter-added onto the targets; the bias added to every row. -/
def aggregate128 (h : (⟨S100000x128, .f32⟩ : BufTy).Contents (Elt F)) (src dst : (⟨S1700000, .i32⟩ : BufTy).Contents (Elt F))
    (nrm : (⟨S1700000, .f32⟩ : BufTy).Contents (Elt F)) (b : (⟨S128, .f32⟩ : BufTy).Contents (Elt F)) :
    (⟨S100000x128, .f32⟩ : BufTy).Contents (Elt F) :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf (Host.gather gather_S100000x128_S1700000x1_S1700000x128_1_0_n_n_0_1_1128 h (wrapIdx src))
        (broadcastInDim S1700000x128 ![0, 1] bcast_S1700000x1_S1700000x128_0_1 (broadcastInDim S1700000x1 ![0] bcast_S1700000_S1700000x1_0 nrm))))
    (broadcastInDim S100000x128 ![0, 1] bcast_S1x128_S100000x128_0_1 (broadcastInDim S1x128 ![1] bcast_S128_S1x128_1 b))

/-- The relu between the layers. -/
def relu128 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The same aggregation at width 64. -/
def aggregate64 (h : (⟨S100000x64, .f32⟩ : BufTy).Contents (Elt F)) (src dst : (⟨S1700000, .i32⟩ : BufTy).Contents (Elt F))
    (nrm : (⟨S1700000, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf (Host.gather gather_S100000x64_S1700000x1_S1700000x64_1_0_n_n_0_1_164 h (wrapIdx src))
        (broadcastInDim S1700000x64 ![0, 1] bcast_S1700000x1_S1700000x64_0_1 (broadcastInDim S1700000x1 ![0] bcast_S1700000_S1700000x1_0 nrm))))
    (broadcastInDim S100000x64 ![0, 1] bcast_S1x64_S100000x64_0_1 (broadcastInDim S1x64 ![1] bcast_S64_S1x64_1 b))

/-- The whole network over two given linear maps `lin1`, `lin2`: layer 1, relu, layer 2. -/
def network
    (lin1 : (⟨S100000x128, .f32⟩ : BufTy).Contents (Elt F) → (⟨S128x128, .f32⟩ : BufTy).Contents (Elt F) → (⟨S100000x128, .f32⟩ : BufTy).Contents (Elt F))
    (lin2 : (⟨S100000x128, .f32⟩ : BufTy).Contents (Elt F) → (⟨S128x64, .f32⟩ : BufTy).Contents (Elt F) → (⟨S100000x64, .f32⟩ : BufTy).Contents (Elt F))
    (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  aggregate64 (lin2 (relu128 (aggregate128 (lin1 x w1) (sources e) (targets e) (edgeNorm (sources e) (targets e)) b1)) w2)
    (sources e) (targets e) (edgeNorm (sources e) (targets e)) b2

end Cert.KernelIdeal.Stages

end
-- ==== Proof.HostArgs.lean ====
/- The float arguments at the first pallas_call's entry: the three stretches of host operations before it write none of them. -/
import proofs.«163183_j40484361732199_1_alg».proof.Proof.Gen.KernelIdeal.Frame
import Idealize.ShloMosaic.Lib.StableHlo.Run

set_option maxRecDepth 16384

noncomputable section

namespace Cert.KernelIdeal.HostArgs

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Argument 0 is as launched at the first region's entry: no host operation before it writes an argument. -/
theorem arg0_at (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results <;> rfl

/-- Argument 2 is as launched at the first region's entry: no host operation before it writes an argument. -/
theorem arg2_at (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results <;> rfl

/-- Argument 3 is as launched at the first region's entry: no host operation before it writes an argument. -/
theorem arg3_at (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results <;> rfl

/-- Argument 4 is as launched at the first region's entry: no host operation before it writes an argument. -/
theorem arg4_at (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results <;> rfl

/-- Argument 5 is as launched at the first region's entry: no host operation before it writes an argument. -/
theorem arg5_at (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results <;> rfl

end Cert.KernelIdeal.HostArgs

end
-- ==== Proof.HostEntry.lean ====
/- What the first pallas_call finds in the buffers the edge list determines. Before that region @main runs three stretches of
   host operations on the edge list alone: the sources and the targets with the self loops, the in-degrees, their inverse
   square roots under the positivity mask, and the per-edge norm. Read back through the stretches, the three buffers the
   later stretches use hold `sources`, `targets` and `edgeNorm` of the edge list as launched. -/
import proofs.«163183_j40484361732199_1_alg».proof.Proof.Gen.KernelIdeal.Frame
import proofs.«163183_j40484361732199_1_alg».proof.Proof.Stages
import Idealize.ShloMosaic.Lib.StableHlo.Run

set_option maxRecDepth 16384

noncomputable section

namespace Cert.KernelIdeal.HostEntry

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The sources with the self loops, at the first region's entry. -/
theorem sources_at (c : Dev nD) : W3 m ρ c (Proc.devRef .tc main_v5) = sources (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results <;> rfl

/-- The targets with the self loops, at the first region's entry. -/
theorem targets_at (c : Dev nD) : W3 m ρ c (Proc.devRef .tc main_v6) = targets (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results <;> rfl

set_option maxHeartbeats 4000000 in
/-- The per-edge norm, at the first region's entry. -/
theorem edgeNorm_at (c : Dev nD) : W3 m ρ c (Proc.devRef .tc main_v29)
    = edgeNorm (sources (m ((c : Thread nD τ).loc main_arg1))) (targets (m ((c : Thread nD τ).loc main_arg1))) := by
  show StableHlo.after hostOps0_2 (StableHlo.after hostOps0_1 (StableHlo.after hostOps0 (W0 m ρ c))) (Proc.devRef .tc main_v29) = _
  simp only [hostOps0_2, hostOps0_1, hostOps0]
  after_results <;> rfl

end Cert.KernelIdeal.HostEntry

end
-- ==== Proof.HostMid.lean ====
/- What the second pallas_call finds. The first region changes only its result array, so the buffers the edge list
   determines and the arguments pass it unchanged; the stretches between the regions then gather the first linear map's
   rows at the sources, scale them by the edge norms, scatter-add them onto the targets, add the first bias and apply the
   relu: the second region's left operand holds `relu128 (aggregate128 …)` of the first region's result, and the
   stretches write none of the buffers the last stretch still reads. -/
import proofs.«163183_j40484361732199_1_alg».proof.Proof.Gen.KernelIdeal.Frame
import proofs.«163183_j40484361732199_1_alg».proof.Proof.Stages
import proofs.«163183_j40484361732199_1_alg».proof.Proof.HostEntry
import proofs.«163183_j40484361732199_1_alg».proof.Proof.HostArgs
import Idealize.ShloMosaic.Lib.StableHlo.Run

set_option maxRecDepth 16384

noncomputable section

namespace Cert.KernelIdeal.HostMid

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first region: everything but its result array is as it was entered -/

theorem sources_after1 (c : Dev nD) : W4 m ρ c (Proc.devRef .tc main_v5) = sources (m ((c : Thread nD τ).loc main_arg1)) :=
  (W4_of_ne m ρ c main_v5 (by decide)).trans (HostEntry.sources_at m ρ c)
theorem targets_after1 (c : Dev nD) : W4 m ρ c (Proc.devRef .tc main_v6) = targets (m ((c : Thread nD τ).loc main_arg1)) :=
  (W4_of_ne m ρ c main_v6 (by decide)).trans (HostEntry.targets_at m ρ c)
theorem edgeNorm_after1 (c : Dev nD) : W4 m ρ c (Proc.devRef .tc main_v29) = edgeNorm (sources (m ((c : Thread nD τ).loc main_arg1))) (targets (m ((c : Thread nD τ).loc main_arg1))) :=
  (W4_of_ne m ρ c main_v29 (by decide)).trans (HostEntry.edgeNorm_at m ρ c)
theorem arg3_after1 (c : Dev nD) : W4 m ρ c (Proc.devRef .tc main_arg3) = m ((c : Thread nD τ).loc main_arg3) :=
  (W4_of_ne m ρ c main_arg3 (by decide)).trans (HostArgs.arg3_at m ρ c)
theorem arg4_after1 (c : Dev nD) : W4 m ρ c (Proc.devRef .tc main_arg4) = m ((c : Thread nD τ).loc main_arg4) :=
  (W4_of_ne m ρ c main_arg4 (by decide)).trans (HostArgs.arg4_at m ρ c)
theorem arg5_after1 (c : Dev nD) : W4 m ρ c (Proc.devRef .tc main_arg5) = m ((c : Thread nD τ).loc main_arg5) :=
  (W4_of_ne m ρ c main_arg5 (by decide)).trans (HostArgs.arg5_at m ρ c)

/-! ## At the second region's entry -/

set_option maxHeartbeats 4000000 in
/-- The hidden features: layer 1's aggregation of the first region's result, then the relu. -/
theorem hidden_at (c : Dev nD) : W6 m ρ c (Proc.devRef .tc main_v47)
    = relu128 (aggregate128 (W4 m ρ c (Proc.devRef .tc main_v30)) (sources (m ((c : Thread nD τ).loc main_arg1))) (targets (m ((c : Thread nD τ).loc main_arg1))) (edgeNorm (sources (m ((c : Thread nD τ).loc main_arg1))) (targets (m ((c : Thread nD τ).loc main_arg1)))) (m ((c : Thread nD τ).loc main_arg3))) := by
  show StableHlo.after hostOps1_1 (StableHlo.after hostOps1 (W4 m ρ c)) (Proc.devRef .tc main_v47) = _
  simp only [hostOps1_1, hostOps1]
  after_results
  rw [sources_after1 m ρ c, targets_after1 m ρ c, edgeNorm_after1 m ρ c, arg3_after1 m ρ c]
  rfl

theorem sources_at2 (c : Dev nD) : W6 m ρ c (Proc.devRef .tc main_v5) = sources (m ((c : Thread nD τ).loc main_arg1)) := by
  show StableHlo.after hostOps1_1 (StableHlo.after hostOps1 (W4 m ρ c)) (Proc.devRef .tc main_v5) = _
  simp only [hostOps1_1, hostOps1]
  after_results
  exact sources_after1 m ρ c
theorem targets_at2 (c : Dev nD) : W6 m ρ c (Proc.devRef .tc main_v6) = targets (m ((c : Thread nD τ).loc main_arg1)) := by
  show StableHlo.after hostOps1_1 (StableHlo.after hostOps1 (W4 m ρ c)) (Proc.devRef .tc main_v6) = _
  simp only [hostOps1_1, hostOps1]
  after_results
  exact targets_after1 m ρ c
theorem edgeNorm_at2 (c : Dev nD) : W6 m ρ c (Proc.devRef .tc main_v29) = edgeNorm (sources (m ((c : Thread nD τ).loc main_arg1))) (targets (m ((c : Thread nD τ).loc main_arg1))) := by
  show StableHlo.after hostOps1_1 (StableHlo.after hostOps1 (W4 m ρ c)) (Proc.devRef .tc main_v29) = _
  simp only [hostOps1_1, hostOps1]
  after_results
  exact edgeNorm_after1 m ρ c
theorem arg4_at2 (c : Dev nD) : W6 m ρ c (Proc.devRef .tc main_arg4) = m ((c : Thread nD τ).loc main_arg4) := by
  show StableHlo.after hostOps1_1 (StableHlo.after hostOps1 (W4 m ρ c)) (Proc.devRef .tc main_arg4) = _
  simp only [hostOps1_1, hostOps1]
  after_results
  exact arg4_after1 m ρ c
theorem arg5_at2 (c : Dev nD) : W6 m ρ c (Proc.devRef .tc main_arg5) = m ((c : Thread nD τ).loc main_arg5) := by
  show StableHlo.after hostOps1_1 (StableHlo.after hostOps1 (W4 m ρ c)) (Proc.devRef .tc main_arg5) = _
  simp only [hostOps1_1, hostOps1]
  after_results
  exact arg5_after1 m ρ c

end Cert.KernelIdeal.HostMid

end
-- ==== Proof.Layer1Kernel.lean ====
/- Layer 1's linear map, on the kernel's side: the first pallas_call leaves in its result array the PRODUCT of its two
   operand arrays as the region finds them. Each of the 20 grid points takes rows 5000·t … 5000·t + 4999 of the
   [100000,128] left array and the whole [128,128] right array, multiplies them on the matrix unit into a zero
   accumulator (the narrowing to bf16 is the identity on extended reals), and writes the [5000,128] block back to the
   same rows of the result. Entry (r, q) of a block is Σ_k left(5000·t + r, k) · right(k, q): the blocks are the
   restrictions of ONE function of the two arrays, `rowsTimes`, and they tile the result's rows, so the array ends
   holding that function. -/
import proofs.«163183_j40484361732199_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.Pipeline (Dat)

/-! ## The block product at an index -/

/-- The left factor's index for output index `j` and contraction index `k`: row of `j`, column `k`. -/
abbrev blkRow (j : S5000x128.Idx) (k : Fin 128) : S5000x128.Idx := fun a => match a with
  | ⟨0, _⟩ => ⟨(j 0).val, (j 0).isLt⟩
  | ⟨1, _⟩ => ⟨k.val, k.isLt⟩
/-- The right factor's index: row `k`, column of `j`. -/
abbrev blkCol (j : S5000x128.Idx) (k : Fin 128) : S128x128.Idx := fun a => match a with
  | ⟨0, _⟩ => ⟨k.val, k.isLt⟩
  | ⟨1, _⟩ => ⟨(j 1).val, (j 1).isLt⟩

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at an index: the row of the left block times the column of the right block (the matrix
    unit's product into the zero accumulator is the plain sum; narrowing to bf16 changes nothing at the ideal values). -/
theorem pay_apply (x0 : Vec Ideal S5000x128 .f32) (x1 : Vec Ideal S128x128 .f32) (j : S5000x128.Idx) :
    k0_pay1 (F := Ideal) x0 x1 j = ∑ k : Fin 128, x0 (blkRow j k) * x1 (blkCol j k) := by
  unfold k0_pay1
  show FloatOps.matmul dot_S5000x128_S128x128_S5000x128_1_0_0_1_n_n none _ _ (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = blkCol j k := funext fun a => Fin.ext (by
    match a with
    | ⟨0, _⟩ => exact (rhs_blk_0 _ _).trans hk
    | ⟨1, _⟩ => exact rhs_blk_1 _ _)
  rw [el, er]
  rfl

/-! ## The whole-array product, and the blocks as its restrictions -/

/-- The left factor's index in the whole array for output index `i`: row of `i`, column `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- The right factor's index: row `k`, column of `i`. -/
abbrev colAt (i : S100000x128.Idx) (k : Fin 128) : S128x128.Idx := fun a => match a with
  | ⟨0, _⟩ => ⟨k.val, k.isLt⟩
  | ⟨1, _⟩ => ⟨(i 1).val, (i 1).isLt⟩

/-- The product of a [100000,128] array with a [128,128] one on the extended reals: entry (r, q) is Σ_k x(r, k) · w(k, q). -/
def rowsTimes (x : (⟨S100000x128, .f32⟩ : BufTy).Contents (Elt Ideal)) (w : (⟨S128x128, .f32⟩ : BufTy).Contents (Elt Ideal)) :
    (⟨S100000x128, .f32⟩ : BufTy).Contents (Elt Ideal) :=
  fun i => ∑ k : Fin 128, x (rowAt i k) * w (colAt i k)

theorem hz : (![0, 0] : Fin 2 → Nat) = fun _ => 0 := funext fun a => by fin_cases a <;> rfl

/-- The printed index maps, decided over the 20 grid points: the left window and the result window sit on block row `t`,
    block column 0; the right window is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the product of the two operand arrays as the region finds them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = rowsTimes (V c main_arg0) (V c main_arg2) (((cfg0.win 2).blk t).view.emb j)
  refine (pay_apply (iblk0 V c 0 t) (iblk0 V c 1 t) j).trans ?_
  unfold rowsTimes
  refine Finset.sum_congr rfl fun k _ => ?_
  have hl : (iblk0 V c 0 t : Vec Ideal S5000x128 .f32) (blkRow j k) = V c main_arg0 (rowAt (((cfg0.win 2).blk t).view.emb j) k) := by
    show V c main_arg0 (((cfg0.win 0).blk t).view.emb (blkRow j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : (iblk0 V c 1 t : Vec Ideal S128x128 .f32) (blkCol j k) = V c main_arg2 (colAt (((cfg0.win 2).blk t).view.emb j) k) := by
    show V c main_arg2 (((cfg0.win 1).blk t).view.emb (blkCol j k)) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the result: row `r` is in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The result array after the region: the product of the two operand arrays as the region finds them. -/
theorem final (c : Dev nD) : (dat0 V c).arrAt 2 cfg0.N = rowsTimes (V c main_arg0) (V c main_arg2) :=
  (dat0 V c).arrAt_eq_of_cover 2 (rowsTimes (V c main_arg0) (V c main_arg2)) (fun t _ => flushed_eq V c t) cover

end Cert.KernelIdeal.Layer1

end
-- ==== Proof.Layer2Kernel.lean ====
/- Layer 2's linear map, on the kernel's side: the second pallas_call leaves in its result array the PRODUCT of its two
   operand arrays as the region finds them. Each of the 20 grid points takes rows 5000·t … 5000·t + 4999 of the
   [100000,128] left array (the hidden features) and the whole [128,64] right array, multiplies them on the matrix unit
   into a zero accumulator (the cast of the left block to its own shape and the narrowing to bf16 are both the identity on
   extended reals), and writes the [5000,64] block back to the same rows of the result. Entry (r, q) of a block is
   Σ_k left(5000·t + r, k) · right(k, q): the blocks are the restrictions of ONE function of the two arrays,
   `rowsTimes`, and they tile the result's rows, so the array ends holding that function. -/
import proofs.«163183_j40484361732199_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.Pipeline (Dat)

/-! ## The block product at an index -/

/-- The left factor's index for output index `j` and contraction index `k`: row of `j`, column `k`. -/
abbrev blkRow (j : S5000x64.Idx) (k : Fin 128) : S5000x128.Idx := fun a => match a with
  | ⟨0, _⟩ => ⟨(j 0).val, (j 0).isLt⟩
  | ⟨1, _⟩ => ⟨k.val, k.isLt⟩
/-- The right factor's index: row `k`, column of `j`. -/
abbrev blkCol (j : S5000x64.Idx) (k : Fin 128) : S128x64.Idx := fun a => match a with
  | ⟨0, _⟩ => ⟨k.val, k.isLt⟩
  | ⟨1, _⟩ => ⟨(j 1).val, (j 1).isLt⟩

theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at an index: the row of the left block times the column of the right block (the matrix
    unit's product into the zero accumulator is the plain sum; the cast of a block to its own shape is the block, and
    narrowing to bf16 changes nothing at the ideal values). -/
theorem pay_apply (x0 : Vec Ideal S5000x128 .f32) (x1 : Vec Ideal S128x64 .f32) (j : S5000x64.Idx) :
    k1_pay1 (F := Ideal) x0 x1 j = ∑ k : Fin 128, x0 (blkRow j k) * x1 (blkCol j k) := by
  unfold k1_pay1
  show FloatOps.matmul dot_S5000x128_S128x64_S5000x64_1_0_0_1_n_n none _ _ (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkRow j k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx j ((ValueIdx.contrEquiv1 dot_S5000x128_S128x64_S5000x64_1_0_0_1_n_n 128 rfl rfl).symm k) = blkCol j k := funext fun a => Fin.ext (by
    match a with
    | ⟨0, _⟩ => exact (rhs_blk_0 _ _).trans hk
    | ⟨1, _⟩ => exact rhs_blk_1 _ _)
  rw [el, er, shapeCast_self]
  rfl

/-! ## The whole-array product, and the blocks as its restrictions -/

/-- The left factor's index in the whole array for output index `i`: row of `i`, column `k`. -/
abbrev rowAt (i : S100000x64.Idx) (k : Fin 128) : S100000x128.Idx := fun a => match a with
  | ⟨0, _⟩ => ⟨(i 0).val, (i 0).isLt⟩
  | ⟨1, _⟩ => ⟨k.val, k.isLt⟩
/-- The right factor's index: row `k`, column of `i`. -/
abbrev colAt (i : S100000x64.Idx) (k : Fin 128) : S128x64.Idx := fun a => match a with
  | ⟨0, _⟩ => ⟨k.val, k.isLt⟩
  | ⟨1, _⟩ => ⟨(i 1).val, (i 1).isLt⟩

/-- The product of a [100000,128] array with a [128,64] one on the extended reals: entry (r, q) is Σ_k x(r, k) · w(k, q). -/
def rowsTimes (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (rowAt i k) * w (colAt i k)

theorem hz : (![0, 0] : Fin 2 → Nat) = fun _ => 0 := funext fun a => by fin_cases a <;> rfl

/-- The printed index maps, decided over the 20 grid points: the left window and the result window sit on block row `t`,
    block column 0; the right window is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the product of the two operand arrays as the region finds them. -/
theorem flushed_eq (c : Dev nD) (t : Fin cfg1.N) :
    (dat1 V c).flushed 2 t = ((cfg1.win 2).blk t).view.read (Elt Ideal) (rowsTimes (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  show k1_pay1 (F := Ideal) (iblk1 V c 0 t) (iblk1 V c 1 t) j = rowsTimes (V c main_v47) (V c main_arg4) (((cfg1.win 2).blk t).view.emb j)
  refine (pay_apply (iblk1 V c 0 t) (iblk1 V c 1 t) j).trans ?_
  unfold rowsTimes
  refine Finset.sum_congr rfl fun k _ => ?_
  have hl : (iblk1 V c 0 t : Vec Ideal S5000x128 .f32) (blkRow j k) = V c main_v47 (rowAt (((cfg1.win 2).blk t).view.emb j) k) := by
    show V c main_v47 (((cfg1.win 0).blk t).view.emb (blkRow j k)) = _
    congr 1
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hr : (iblk1 V c 1 t : Vec Ideal S128x64 .f32) (blkCol j k) = V c main_arg4 (colAt (((cfg1.win 2).blk t).view.emb j) k) := by
    show V c main_arg4 (((cfg1.win 1).blk t).view.emb (blkCol j k)) = _
    congr 1
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hl, hr]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- The 20 row blocks tile the result: row `r` is in the block of point `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk]
  obtain ⟨e0, e1, e2, e3, e4, e5⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-- The result array after the region: the product of the two operand arrays as the region finds them. -/
theorem final (c : Dev nD) : (dat1 V c).arrAt 2 cfg1.N = rowsTimes (V c main_v47) (V c main_arg4) :=
  (dat1 V c).arrAt_eq_of_cover 2 (rowsTimes (V c main_v47) (V c main_arg4)) (fun t _ => flushed_eq V c t) cover

end Cert.KernelIdeal.Layer2

end
-- ==== Proof.HostOut.lean ====
/- The kernel program's result as one function of its arguments. The second region again changes only its result array; the
   last stretch of host operations gathers the second linear map's rows at the sources, scales, scatter-adds onto the targets
   and adds the second bias. With each region's result array the product of its operands (`Layer1.final`, `Layer2.final`),
   the result buffer after the last stretch is `network` over the two products. -/
import proofs.«163183_j40484361732199_1_alg».proof.Proof.Gen.KernelIdeal.Frame
import proofs.«163183_j40484361732199_1_alg».proof.Proof.Stages
import proofs.«163183_j40484361732199_1_alg».proof.Proof.HostArgs
import proofs.«163183_j40484361732199_1_alg».proof.Proof.HostMid
import proofs.«163183_j40484361732199_1_alg».proof.Proof.Layer1Kernel
import proofs.«163183_j40484361732199_1_alg».proof.Proof.Layer2Kernel
import Idealize.ShloMosaic.Lib.StableHlo.Run

set_option maxRecDepth 16384

noncomputable section

namespace Cert.KernelIdeal.HostOut

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the second region, and the last stretch -/

theorem sources_after2 (c : Dev nD) : W7 m ρ c (Proc.devRef .tc main_v5) = sources (m ((c : Thread nD τ).loc main_arg1)) :=
  (W7_of_ne m ρ c main_v5 (by decide)).trans (HostMid.sources_at2 m ρ c)
theorem targets_after2 (c : Dev nD) : W7 m ρ c (Proc.devRef .tc main_v6) = targets (m ((c : Thread nD τ).loc main_arg1)) :=
  (W7_of_ne m ρ c main_v6 (by decide)).trans (HostMid.targets_at2 m ρ c)
theorem edgeNorm_after2 (c : Dev nD) : W7 m ρ c (Proc.devRef .tc main_v29) = edgeNorm (sources (m ((c : Thread nD τ).loc main_arg1))) (targets (m ((c : Thread nD τ).loc main_arg1))) :=
  (W7_of_ne m ρ c main_v29 (by decide)).trans (HostMid.edgeNorm_at2 m ρ c)
theorem arg5_after2 (c : Dev nD) : W7 m ρ c (Proc.devRef .tc main_arg5) = m ((c : Thread nD τ).loc main_arg5) :=
  (W7_of_ne m ρ c main_arg5 (by decide)).trans (HostMid.arg5_at2 m ρ c)

set_option maxHeartbeats 4000000 in
/-- The result buffer: layer 2's aggregation of the second region's result. -/
theorem out_at (c : Dev nD) : W8 m ρ c (Proc.devRef .tc main_v64)
    = aggregate64 (W7 m ρ c (Proc.devRef .tc main_v48)) (sources (m ((c : Thread nD τ).loc main_arg1))) (targets (m ((c : Thread nD τ).loc main_arg1))) (edgeNorm (sources (m ((c : Thread nD τ).loc main_arg1))) (targets (m ((c : Thread nD τ).loc main_arg1)))) (m ((c : Thread nD τ).loc main_arg5)) := by
  show StableHlo.after hostOps2 (W7 m ρ c) (Proc.devRef .tc main_v64) = _
  simp only [hostOps2]
  after_results
  rw [sources_after2 m ρ c, targets_after2 m ρ c, edgeNorm_after2 m ρ c, arg5_after2 m ρ c]
  rfl

end Cert.KernelIdeal.HostOut

namespace Cert.KernelIdeal.HostOut

open Cert.KernelIdeal Cert.KernelIdeal.Gen Cert.KernelIdeal.Stages
open Idealize.ShloMosaic Idealize.ShloMosaic.TcCoe Idealize.SL.Sem Idealize.ShloMosaic.StableHlo

/-! ## At the ideal values: the two regions' results are the products -/

variable (m : (ℓ : Loc nD τ sig) → Buf (Elt Ideal) ℓ) (ρ : Dev nD → PrngReg)

/-- The first region's result array: the features times the first weight matrix, both as launched. -/
theorem lin1_at (c : Dev nD) : W4 m ρ c (Proc.devRef .tc main_v30)
    = Layer1.rowsTimes (m ((c : Thread nD τ).loc main_arg0)) (m ((c : Thread nD τ).loc main_arg2)) :=
  (W4_arr m ρ c 2).trans ((Layer1.final (V3 m ρ) c).trans
    (congrArg₂ Layer1.rowsTimes (HostArgs.arg0_at m ρ c) (HostArgs.arg2_at m ρ c)))

/-- The second region's result array: the hidden features it finds times the second weight matrix as launched. -/
theorem lin2_at (c : Dev nD) : W7 m ρ c (Proc.devRef .tc main_v48)
    = Layer2.rowsTimes (W6 m ρ c (Proc.devRef .tc main_v47)) (m ((c : Thread nD τ).loc main_arg4)) :=
  (W7_arr m ρ c 2).trans ((Layer2.final (V6 m ρ) c).trans
    (congrArg (Layer2.rowsTimes (W6 m ρ c (Proc.devRef .tc main_v47))) (HostMid.arg4_at2 m ρ c)))

/-- The kernel program's result: the two-layer network over the two products, of the arguments as launched. -/
theorem result (c : Dev nD) : W8 m ρ c (Proc.devRef .tc main_v64)
    = network Layer1.rowsTimes Layer2.rowsTimes (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [out_at m ρ c, lin2_at m ρ c, HostMid.hidden_at m ρ c, lin1_at m ρ c]
  rfl

end Cert.KernelIdeal.HostOut

end
-- ==== Proof.RefLinear1.lean ====
/- The reference's linear map of layer 1, read at an index. jnp's `x @ W` prints as a host `dot_general` contracting axis 1 of
   the left array with axis 0 of the right; at the ideal values its entry (r, q) is Σ_k x(r, k) · w(k, q) — the function
   `rowsTimes` that the kernel's region of layer 1 leaves in its result array. -/
import proofs.«163183_j40484361732199_1_alg».proof.Proof.Gen.ReferenceIdeal
import proofs.«163183_j40484361732199_1_alg».proof.Proof.Layer1Kernel
import Idealize.ShloMosaic.Lib.ValueIdx
import Idealize.ShloMosaic.PureOps.Ideal.Laws

noncomputable section

namespace Cert.ReferenceIdeal.Linear1

open Cert.ReferenceIdeal Cert.ReferenceIdeal.Gen Idealize.ShloMosaic

theorem lhs_l1_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_l1_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_l1_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_l1_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The reference's `dot_general` of layer 1 is the product `rowsTimes`: at the ideal values it is the plain sum over the
    contracted axis, with no accumulator and no schedule left in it. -/
theorem dot_l1_eq (x : FVec Ideal S100000x128 .f32) (w : FVec Ideal S128x128 .f32) :
    Host.dotGeneral dot_S100000x128_S128x128_S100000x128_1_0_0_1_n_n none x w = Cert.KernelIdeal.Layer1.rowsTimes x w := by
  funext i
  simp only [Host.dotGeneral]
  rw [Ideal.dotGeneral_apply, ← Equiv.sum_comp (ValueIdx.contrEquiv1 dot_S100000x128_S128x128_S100000x128_1_0_0_1_n_n 128 rfl rfl).symm]
  unfold Cert.KernelIdeal.Layer1.rowsTimes
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Cert.KernelIdeal.Layer1.rowAt i k := funext fun a => Fin.ext (by
    match a with
    | ⟨0, _⟩ => exact lhs_l1_0 _ _
    | ⟨1, _⟩ => exact (lhs_l1_1 _ _).trans hk)
  have er : dot_S100000x128_S128x128_S100000x128_1_0_0_1_n_n.rhsIdx i ((ValueIdx.contrEquiv1 dot_S100000x128_S128x128_S100000x128_1_0_0_1_n_n 128 rfl rfl).symm k) = Cert.KernelIdeal.Layer1.colAt i k := funext fun a => Fin.ext (by
    match a with
    | ⟨0, _⟩ => exact (rhs_l1_0 _ _).trans hk
    | ⟨1, _⟩ => exact rhs_l1_1 _ _)
  rw [el, er]

end Cert.ReferenceIdeal.Linear1

end
-- ==== Proof.RefLinear2.lean ====
/- The reference's linear map of layer 2, read at an index. jnp's `x @ W` prints as a host `dot_general` contracting axis 1 of
   the left array with axis 0 of the right; at the ideal values its entry (r, q) is Σ_k x(r, k) · w(k, q) — the function
   `rowsTimes` that the kernel's region of layer 2 leaves in its result array. -/
import proofs.«163183_j40484361732199_1_alg».proof.Proof.Gen.ReferenceIdeal
import proofs.«163183_j40484361732199_1_alg».proof.Proof.Layer2Kernel
import Idealize.ShloMosaic.Lib.ValueIdx
import Idealize.ShloMosaic.PureOps.Ideal.Laws

noncomputable section

namespace Cert.ReferenceIdeal.Linear2

open Cert.ReferenceIdeal Cert.ReferenceIdeal.Gen Idealize.ShloMosaic

theorem lhs_l2_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_l2_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_l2_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_l2_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The reference's `dot_general` of layer 2 is the product `rowsTimes`: at the ideal values it is the plain sum over the
    contracted axis, with no accumulator and no schedule left in it. -/
theorem dot_l2_eq (x : FVec Ideal S100000x128 .f32) (w : FVec Ideal S128x64 .f32) :
    Host.dotGeneral dot_S100000x128_S128x64_S100000x64_1_0_0_1_n_n none x w = Cert.KernelIdeal.Layer2.rowsTimes x w := by
  funext i
  simp only [Host.dotGeneral]
  rw [Ideal.dotGeneral_apply, ← Equiv.sum_comp (ValueIdx.contrEquiv1 dot_S100000x128_S128x64_S100000x64_1_0_0_1_n_n 128 rfl rfl).symm]
  unfold Cert.KernelIdeal.Layer2.rowsTimes
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = Cert.KernelIdeal.Layer2.rowAt i k := funext fun a => Fin.ext (by
    match a with
    | ⟨0, _⟩ => exact lhs_l2_0 _ _
    | ⟨1, _⟩ => exact (lhs_l2_1 _ _).trans hk)
  have er : dot_S100000x128_S128x64_S100000x64_1_0_0_1_n_n.rhsIdx i ((ValueIdx.contrEquiv1 dot_S100000x128_S128x64_S100000x64_1_0_0_1_n_n 128 rfl rfl).symm k) = Cert.KernelIdeal.Layer2.colAt i k := funext fun a => Fin.ext (by
    match a with
    | ⟨0, _⟩ => exact (rhs_l2_0 _ _).trans hk
    | ⟨1, _⟩ => exact rhs_l2_1 _ _)
  rw [el, er]

end Cert.ReferenceIdeal.Linear2

end
-- ==== Proof.RefBridge.lean ====
/- The reference's result as the same function of its arguments. Its composed term — every host operation of @main applied in
   order — is the two-layer `network` with jnp's two `dot_general`s as the linear maps: the operations around them are,
   one for one, those of the kernel's program. At the ideal values each `dot_general` is the product `rowsTimes`
   (`Linear1.dot_l1_eq`, `Linear2.dot_l2_eq`), so the reference's result is the network over the two products. -/
import proofs.«163183_j40484361732199_1_alg».proof.Proof.RefRun
import proofs.«163183_j40484361732199_1_alg».proof.Proof.Stages
import proofs.«163183_j40484361732199_1_alg».proof.Proof.RefLinear1
import proofs.«163183_j40484361732199_1_alg».proof.Proof.RefLinear2

set_option maxRecDepth 16384

noncomputable section

namespace Cert.ReferenceIdeal.Bridge

open Cert.ReferenceIdeal Cert.ReferenceIdeal.Gen
open Idealize.ShloMosaic Idealize.ShloMosaic.TcCoe Idealize.SL.Sem

section AnyFloats

variable {F : FTy → Type} [FloatOps F]

/-- The reference's first linear map: jnp's `x @ W1`. -/
def hostLin1 (l : (⟨S100000x128, .f32⟩ : BufTy).Contents (Elt F)) (r : (⟨S128x128, .f32⟩ : BufTy).Contents (Elt F)) : (⟨S100000x128, .f32⟩ : BufTy).Contents (Elt F) :=
  Host.dotGeneral (φ₁ := .f32) (φ₂ := .f32) dot_S100000x128_S128x128_S100000x128_1_0_0_1_n_n none l r
/-- The reference's second linear map: jnp's `h @ W2`. -/
def hostLin2 (l : (⟨S100000x128, .f32⟩ : BufTy).Contents (Elt F)) (r : (⟨S128x64, .f32⟩ : BufTy).Contents (Elt F)) : (⟨S100000x64, .f32⟩ : BufTy).Contents (Elt F) :=
  Host.dotGeneral (φ₁ := .f32) (φ₂ := .f32) dot_S100000x128_S128x64_S100000x64_1_0_0_1_n_n none l r

set_option maxHeartbeats 4000000 in
/-- The reference's composed term is the network over its two `dot_general`s: the same host operations, in the same order,
    around them (both sides unfold to one term). -/
theorem res_eq_network (m : (ℓ : Loc nD τ sig) → Buf (Elt F) ℓ) (c : Dev nD) :
    Cert.ReferenceIdeal.Value.res_out0 m c
      = Cert.KernelIdeal.Stages.network (F := F) hostLin1 hostLin2
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show Cert.ReferenceIdeal.Value.res_main_v64 m c = _
  unfold Cert.ReferenceIdeal.Value.res_main_v64
  rfl

end AnyFloats

/-- At the ideal values jnp's first product is `rowsTimes`. -/
theorem hostLin1_eq : hostLin1 (F := Ideal) = Cert.KernelIdeal.Layer1.rowsTimes :=
  funext fun l => funext fun r => Linear1.dot_l1_eq l r
/-- At the ideal values jnp's second product is `rowsTimes`. -/
theorem hostLin2_eq : hostLin2 (F := Ideal) = Cert.KernelIdeal.Layer2.rowsTimes :=
  funext fun l => funext fun r => Linear2.dot_l2_eq l r

/-- The reference's result at the ideal values: the network over the two products, of its arguments as launched. -/
theorem res_eq (m : (ℓ : Loc nD τ sig) → Buf (Elt Ideal) ℓ) (c : Dev nD) :
    Cert.ReferenceIdeal.Value.res_out0 m c
      = Cert.KernelIdeal.Stages.network Cert.KernelIdeal.Layer1.rowsTimes Cert.KernelIdeal.Layer2.rowsTimes
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [res_eq_network m c, hostLin1_eq, hostLin2_eq]

end Cert.ReferenceIdeal.Bridge

end
-- ==== Proof.lean ====
/- The proof of `Cert.Claim`: a two-layer graph convolution whose two linear maps run as Pallas matmul kernels, against the
   same network with jnp's `x @ W`.
   The three frames: the two kernel programs' by their generated frame certificates, the reference's by its run with the
   result dropped. `preserves` is `True` (the ideal pass rewrote nothing). `algebraic`: the kernel program's result buffer
   is the last host stretch applied to the second region's result array, which is the product of the hidden features
   with the second weight matrix; the hidden features are the middle stretches applied to the first region's result
   array, the product of the input features with the first weight matrix (Proof/Layer1Kernel.lean, Layer2Kernel.lean:
   20 row blocks of 5000, each one MXU product into zero, tiling the rows; Proof/HostEntry.lean … HostOut.lean: the host
   stretches read back). The reference applies the same host operations around two `dot_general`s, each the same sum
   Σ_k x(r,k)·w(k,q) on the extended reals (Proof/RefLinear1.lean, RefLinear2.lean, RefBridge.lean). The one law of
   arithmetic used is `0 + s = s` (the zero accumulator), which holds at the infinities too: the precondition is never opened. -/
import proofs.«163183_j40484361732199_1_alg».proof.Defs
import proofs.«163183_j40484361732199_1_alg».proof.Proof.Gen.Kernel
import proofs.«163183_j40484361732199_1_alg».proof.Proof.Gen.Kernel.Frame
import proofs.«163183_j40484361732199_1_alg».proof.Proof.Gen.KernelIdeal
import proofs.«163183_j40484361732199_1_alg».proof.Proof.Gen.KernelIdeal.Frame
import proofs.«163183_j40484361732199_1_alg».proof.Proof.Gen.ReferenceIdeal
import proofs.«163183_j40484361732199_1_alg».proof.Proof.Gen.Pre_finite_inputs
import proofs.«163183_j40484361732199_1_alg».proof.Proof.KernelRun
import proofs.«163183_j40484361732199_1_alg».proof.Proof.HostOut
import proofs.«163183_j40484361732199_1_alg».proof.Proof.RefRun
import proofs.«163183_j40484361732199_1_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the network over the two products of arguments that agree. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Bridge.res_eq m' c).trans ?_
  refine Eq.trans ?_ (Cert.KernelIdeal.HostOut.result m ρ c).symm
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
